-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg5 : FVec F S256 .f32) (main_arg6 : FVec F S256x1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  main_v28

def fn {F : FTy → Type} [FloatOps F] (main_arg0 : FVec F S16384x128 .f32) (main_arg1 : IVec S16384 32) (main_arg2 : FVec F S128x512 .f32) (main_arg3 : FVec F S512 .f32) (main_arg4 : FVec F S512x256 .f32) (main_arg5 : FVec F S256 .f32) (main_arg6 : FVec F S256x1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_v13 main_v16
-- ==== Kernel.lean ====
abbrev S16384x128 : Shape := ⟨2, ![16384, 128]⟩
abbrev S16384 : Shape := ⟨1, ![16384]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S16x1x1024 : Shape := ⟨3, ![16, 1, 1024]⟩
abbrev S1x512 : Shape := ⟨2, ![1, 512]⟩
abbrev S1x256 : Shape := ⟨2, ![1, 256]⟩
abbrev S1x16 : Shape := ⟨2, ![1, 16]⟩
abbrev S1024x128 : Shape := ⟨2, ![1024, 128]⟩
abbrev S1x1x1024 : Shape := ⟨3, ![1, 1, 1024]⟩
abbrev S16x512 : Shape := ⟨2, ![16, 512]⟩
abbrev S1024x512 : Shape := ⟨2, ![1024, 512]⟩
abbrev S1024 : Shape := ⟨1, ![1024]⟩
abbrev S16x1024 : Shape := ⟨2, ![16, 1024]⟩
abbrev S1x1024 : Shape := ⟨2, ![1, 1024]⟩
abbrev S16 : Shape := ⟨1, ![16]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S16x1x1024, .i32⟩
  | .hbm, ⟨8, _⟩ => ⟨S1x512, .f32⟩
  | .hbm, ⟨9, _⟩ => ⟨S1x256, .f32⟩
  | .hbm, ⟨10, _⟩ => ⟨S1x16, .f32⟩
  | .hbm, ⟨11, _⟩ => ⟨S16, .f32⟩
  | .local _ .vmem, ⟨0, _⟩ => ⟨S1024x128, .f32⟩
  | .local _ .vmem, ⟨1, _⟩ => ⟨S1024x128, .f32⟩
  | .local _ .vmem, ⟨2, _⟩ => ⟨S1x1x1024, .i32⟩
  | .local _ .vmem, ⟨3, _⟩ => ⟨S1x1x1024, .i32⟩
  | .local _ .vmem, ⟨4, _⟩ => ⟨S128x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S256x1, .f32⟩
  | .local _ .vmem, ⟨9, _⟩ => ⟨S1x16, .f32⟩
  | .local _ .vmem, ⟨10, _⟩ => ⟨S16x512, .f32⟩
  | .local _ .vmem, ⟨11, _⟩ => ⟨S1x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v34 : BitVec 1 := Scalar.cmpi .eq arg0 c15_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S16384_S16x1x1024 : S16384.ShapeCasts S16x1x1024
  shapeCasts_S512_S1x512 : S512.ShapeCasts S1x512
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S1024x512 : S1x512.Broadcasts S1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S16x1024_d0_w32 : S16x1024.Iotas .tc 32 [0]
  shapeCasts_S1024_S1x1024 : S1024.ShapeCasts S1x1024
  broadcasts_S1x1024_S16x1024 : S1x1024.Broadcasts S16x1024
  natLt_1_32 : 1 < 32
  reduces_S16x1024_S16 : S16x1024.Reduces [1] S16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S1x16_S16 : S1x16.ShapeCasts S16
  shapeCasts_S16_S1x16 : S16.ShapeCasts S1x16
  inb_S512x256_S512x256_0_0 : ∀ a, (![0, 0] : Fin 2 → Nat) a + S512x256.size a ≤ S512x256.size a
  h_S512x256 : 0 < S512x256.numel
  inb_S256x1_S256x1_0_0 : ∀ a, (![0, 0] : Fin 2 → Nat) a + S256x1.size a ≤ S256x1.size a
  h_S256x1 : 0 < S256x1.numel
  inb_S1x256_S1x256_0_0 : ∀ a, (![0, 0] : Fin 2 → Nat) a + S1x256.size a ≤ S1x256.size a
  h_S1x256 : 0 < S1x256.numel
  shapeCasts_S1x256_S256 : S1x256.ShapeCasts S256
  shapeCasts_S256x1_S256 : S256x1.ShapeCasts S256
  reduces_S1x256_S1 : S1x256.Reduces [1] S1
  shapeCasts_S1_S1x1 : S1.ShapeCasts S1x1
  inpos_S1x1_p0_0 : ∀ a, (![0, 0] : Fin 2 → Nat) a < S1x1.size a
  shapeCasts_S512x1_S512 : S512x1.ShapeCasts S512
  broadcasts_S1x512_S16x512 : S1x512.Broadcasts S16x512
  reduces_S16x512_S16 : S16x512.Reduces [1] S16
  dot_S1024x128_S128x512_S1024x512_1_0_0_1_n_n_wf : DotDims.WF S1024x128 S128x512 S1024x512 [1] [0] [0] [1] [] []
  dot_S16x1024_S1024x512_S16x512_1_0_0_1_n_n_wf : DotDims.WF S16x1024 S1024x512 S16x512 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .i32 = 32 ∨ (Rect.block (s := S16x1x1024) S1x1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x16.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x1 : Shape := ⟨2, ![16384, 1]⟩
abbrev S16 : Shape := ⟨1, ![16]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S16384x512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x256, .f32⟩
  | .hbm, ⟨15, _⟩ => ⟨S1x256, .f32⟩
  | .hbm, ⟨16, _⟩ => ⟨S16384x256, .f32⟩
  | .hbm, ⟨17, _⟩ => ⟨S16384x256, .f32⟩
  | .hbm, ⟨18, _⟩ => ⟨S16384x1, .f32⟩
  | .hbm, ⟨19, _⟩ => ⟨S16384, .f32⟩
  | .hbm, ⟨20, _⟩ => ⟨S_, .f32⟩
  | .hbm, ⟨21, _⟩ => ⟨S16, .f32⟩
  | .hbm, ⟨22, _⟩ => ⟨S16384x1, .i32⟩
  | .hbm, ⟨23, _⟩ => ⟨S16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x1_S16384 : S16384x1.ShapeCasts S16384
  bcast_S_S16 : S_.BroadcastsInDim S16 (![] : Fin 0 → Fin S16.rank)
  bcast_S16384_S16384x1_0 : S16384.BroadcastsInDim S16384x1 (![0] : Fin 1 → Fin S16384x1.rank)
  dot_S16384x128_S128x512_S16384x512_1_0_0_1_n_n_wf : DotDims.WF S16384x128 S128x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []
  scatter_S16_S16384x1_S16384_n_0_0_1_wf : ScatterDims.WF S16 S16384x1 S16384 [] [0] [0] 1

variable [Facts₀]

def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf

class Facts : Prop extends Facts₀ where

variable [Facts]
-- ==== Proof.KPieces.lean ====
/-
  What each control case of the kernel's body leaves behind, as a value.

  The body runs in three cases: at the first block it clears the two running totals and then adds the
  block's contribution; at a middle block it only adds; at the last block it adds and then writes the
  output from the updated totals. In every case the hidden totals end at "what they held (zero, at the
  first block) updated by this block", the counts likewise, and in the last case the output block is the
  linear tail of the updated totals and counts.
-/
import proofs.«140124_g27273042329868_cont_9to1_1261_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A middle block: the hidden totals are updated by the block. -/
theorem sB0 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : ¬cond0_0 i) (hc1 : ¬cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) (xs0 : Vec F S16x512 .f32) (xs1 : Vec F S1x16 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay5 x0 x2 x3 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz]

/-- A middle block: the counts are updated by the block. -/
theorem sB1 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : ¬cond0_0 i) (hc1 : ¬cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) (xs0 : Vec F S16x512 .f32) (xs1 : Vec F S1x16 .f32) :
    sout0_B_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay6 x1 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz]

/-- The first block: the hidden totals are cleared, then updated by the block. -/
theorem sA0 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : cond0_0 i) (hc1 : ¬cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 = k0_pay5 x0 x2 x3 x1 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S16x512) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz, View.readCov_unit_zero (S := S16x512) _ hz]

/-- The first block: the counts are cleared, then updated by the block. -/
theorem sA1 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : cond0_0 i) (hc1 : ¬cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) :
    sout0_A_1 c i arg1 harg1 arg2 harg2 arg3 harg3 arg4 harg4 arg5 harg5 arg6 harg6 arg7 harg7 arg8 harg8 arg9 harg9 arg10 harg10 hc0 hc1 x0 x1 x2 x3 x4 x5 x6 = k0_pay6 x1 (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1x16) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz, View.readCov_unit_zero (S := S1x16) _ hz]

/-- The last block: the hidden totals are updated by the block. -/
theorem sC0 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : ¬cond0_0 i) (hc1 : cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) (xs0 : Vec F S16x512 .f32) (xs1 : Vec F S1x16 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay5 x0 x2 x3 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz]

/-- The last block: the counts are updated by the block. -/
theorem sC1 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : ¬cond0_0 i) (hc1 : cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) (xs0 : Vec F S16x512 .f32) (xs1 : Vec F S1x16 .f32) :
    sout0_C_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay6 x1 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz]

/-- The last block: the output block is the linear tail of the updated totals and counts. -/
theorem oC7 (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (arg9 : Memref sig .tc .vmem S16x512 .f32) (harg9 : arg9.IsWhole) (arg10 : Memref sig .tc .vmem S1x16 .f32) (harg10 : arg10.IsWhole) (hc0 : ¬cond0_0 i) (hc1 : cond0_1 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) (xs0 : Vec F S16x512 .f32) (xs1 : Vec F S1x16 .f32) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay1 x4 x6 x5 x6 (k0_pay5 x0 x2 x3 x1 xs0) (k0_pay6 x1 xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x128) hz, View.ld_unit_zero (S := S128x512) hz, View.ld_unit_zero (S := S1x512) hz, View.ld_unit_zero (S := S1x1x1024) hz3, View.ld_unit_zero (S := S16x512) hz, View.ld_unit_zero (S := S1x16) hz, View.ld_unit_zero (S := S512x256) hz, View.ld_unit_zero (S := S1x256) hz, View.ld_unit_zero (S := S256x1) hz, View.readCov_unit_zero (S := S16x512) _ hz, View.readCov_unit_zero (S := S1x16) _ hz]

end Cert.KernelIdeal.Pieces

end
-- ==== Proof.KPay.lean ====
/-
  The body's arithmetic read at an index, over the extended reals.

  Each stored value of the kernel's body is a pure function of the blocks the body loaded. Read at one
  index these are: the indicator that a token of the block carries segment id `b`; the hidden-layer
  total of a segment updated by one block of tokens (the indicator row times the rectified affine image
  of the block, a matrix product, added to the running total); the token count of a segment updated by
  one block; and, at the last block, the linear tail applied to the totals.
-/
import proofs.«140124_g27273042329868_cont_9to1_1261_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- Whether row `r` of a block of segment ids is the id `b`, as a number. -/
def ind (ids : Vec Ideal S1x1x1024 .i32) (b : Fin 16) (r : Fin 1024) : EReal :=
  if BitVec.ofNat 32 b.val = ids (ix3 0 0 r) then 1 else 0

/-! ## Layout readings -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.mul_one, Nat.add_zero])

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    simp only [Nat.mul_one, Nat.add_zero])

/-- A sum along the columns of a matrix: the source index over row `p` with column `q` inserted is `(p, q)`. -/
theorem lift_cols {m n : ℕ} (h : (⟨2, ![m, n]⟩ : Shape).Reduces [1] ⟨1, ![m]⟩) (p : Fin m) (q : Fin n) :
    h.lift (ix1 p) q = ix2 p q := by
  funext a
  apply Fin.ext
  match a with
  | ⟨0, _⟩ => rfl
  | ⟨1, _⟩ => rfl

/-- An integer comparison at an index compares the elements. -/
theorem cmpi_apply {s : Shape} {w : Nat} (p : CmpIPredicate) (x y : IVec s w) (i : s.Idx) :
    cmpi p x y i = IntOp.cmpi p (x i) (y i) := rfl

/-! ## The one-hot word -/

/-- The equality bit of two words, widened and converted, is one when they agree and zero otherwise. -/
theorem onehot_word (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · have hc : IntOp.cmpi .eq x y = 1#1 := by
      show BitVec.ofBool (x == y) = 1#1
      rw [beq_iff_eq.mpr h]; rfl
    have h1 : (BitVec.setWidth 32 1#1).toInt = 1 := by decide
    rw [if_pos h, hc, h1]
    simp
  · have hc : IntOp.cmpi .eq x y = 0#1 := by
      show BitVec.ofBool (x == y) = 0#1
      rw [beq_eq_false_iff_ne.mpr h]; rfl
    have h0 : (BitVec.setWidth 32 0#1).toInt = 0 := by decide
    rw [if_neg h, hc, h0]
    simp

/-! ## The three matrix products into a zero accumulator, read at an entry -/

theorem lhs_mmX_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_mmX_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_mmX_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_mmX_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl
/-- The block times the first weight matrix: entry `(p, c)` is row `p` of the block paired with column `c`. -/
theorem mmX_apply (A : FVec Ideal S1024x128 .f32) (B : FVec Ideal S128x512 .f32) (p : Fin 1024) (c : Fin 512) :
    matmul (F := Ideal) dot_S1024x128_S128x512_S1024x512_1_0_0_1_n_n none A B (constant (F := Ideal) S1024x512 .f32 0x00000000#32) (ix2 p c)
      = ∑ k : Fin 128, A (ix2 p k) * B (ix2 k c) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p c) ((contrEquiv1 dot_S1024x128_S128x512_S1024x512_1_0_0_1_n_n 128 rfl rfl).symm k) = ix2 p k := funext fun a => Fin.ext (by
    match a with
    | ⟨0, _⟩ => exact lhs_mmX_0 _ _
    | ⟨1, _⟩ => exact (lhs_mmX_1 _ _).trans hk)
  have er : dot_S1024x128_S128x512_S1024x512_1_0_0_1_n_n.rhsIdx (ix2 p c) ((contrEquiv1 dot_S1024x128_S128x512_S1024x512_1_0_0_1_n_n 128 rfl rfl).symm k) = ix2 k c := funext fun a => Fin.ext (by
    match a with
    | ⟨0, _⟩ => exact (rhs_mmX_0 _ _).trans hk
    | ⟨1, _⟩ => exact rhs_mmX_1 _ _)
  rw [el, er]

theorem lhs_mmH_0 (i : S16x512.Idx) (q : dot_S16x1024_S1024x512_S16x512_1_0_0_1_n_n.contr.Idx) :
    (dot_S16x1024_S1024x512_S16x512_1_0_0_1_n_n.lhsIdx i q 0).val = (i 0).val := by
  unfold DotDims.lhsIdx
  rw [dif_neg (show ¬(0 : Fin S16x1024.rank) ∈ dot_S16x1024_S1024x512_S16x512_1_0_0_1_n_n.lhsBatch by decide), dif_pos (show (0 : Fin S16x1024.rank) ∈ dot_S16x1024_S1024x512_S16x512_1_0_0_1_n_n.lhsNonContracting by decide)]
  rfl
theorem lhs_mmH_1 (i : S16x512.Idx) (q : dot_S16x1024_S1024x512_S16x512_1_0_0_1_n_n.contr.Idx) :
    (dot_S16x1024_S1024x512_S16x512_1_0_0_1_n_n.lhsIdx i q 1).val = (q ⟨0, by decide⟩).val :=
  dot_S16x1024_S1024x512_S16x512_1_0_0_1_n_n.lhsIdx_val_of_single rfl i q
theorem rhs_mmH_0 (i : S16x512.Idx) (q : dot_S16x1024_S1024x512_S16x512_1_0_0_1_n_n.contr.Idx) :
    (dot_S16x1024_S1024x512_S16x512_1_0_0_1_n_n.rhsIdx i q 0).val = (q ⟨0, by decide⟩).val :=
  dot_S16x1024_S1024x512_S16x512_1_0_0_1_n_n.rhsIdx_val_of_single rfl i q
theorem rhs_mmH_1 (i : S16x512.Idx) (q : dot_S16x1024_S1024x512_S16x512_1_0_0_1_n_n.contr.Idx) :
    (dot_S16x1024_S1024x512_S16x512_1_0_0_1_n_n.rhsIdx i q 1).val = (i 1).val := by
  unfold DotDims.rhsIdx
  rw [dif_neg (show ¬(1 : Fin S1024x512.rank) ∈ dot_S16x1024_S1024x512_S16x512_1_0_0_1_n_n.rhsBatch by decide), dif_pos (show (1 : Fin S1024x512.rank) ∈ dot_S16x1024_S1024x512_S16x512_1_0_0_1_n_n.rhsNonContracting by decide)]
  rfl
/-- A 16-row matrix times the rectified image: entry `(p, c)` sums over the block's rows. -/
theorem mmH_apply (A : FVec Ideal S16x1024 .f32) (B : FVec Ideal S1024x512 .f32) (p : Fin 16) (c : Fin 512) :
    matmul (F := Ideal) dot_S16x1024_S1024x512_S16x512_1_0_0_1_n_n none A B (constant (F := Ideal) S16x512 .f32 0x00000000#32) (ix2 p c)
      = ∑ k : Fin 1024, A (ix2 p k) * B (ix2 k c) := by
  simp only [matmul]
  rw [Ideal.matmul_constant_zero_apply, ← Equiv.sum_comp (contrEquiv1 dot_S16x1024_S1024x512_S16x512_1_0_0_1_n_n 1024 rfl rfl).symm]
  refine Finset.sum_congr rfl fun k _ => ?_
  have hk := contrEquiv1_symm_val dot_S16x1024_S1024x512_S16x512_1_0_0_1_n_n 1024 rfl rfl k
  have el : dot_S16x1024_S1024x512_S16x512_1_0_0_1_n_n.lhsIdx (ix2 p c) ((contrEquiv1 dot_S16x1024_S1024x512_S16x512_1_0_0_1_n_n 1024 rfl rfl).symm k) = ix2 p k := funext fun a => Fin.ext (by
    match a with
    | ⟨0, _⟩ => exact lhs_mmH_0 _ _
    | ⟨1, _⟩ => exact (lhs_mmH_1 _ _).trans hk)
  have er : dot_S16x1024_S1024x512_S16x512_1_0_0_1_n_n.rhsIdx (ix2 p c) ((contrEquiv1 dot_S16x1024_S1024x512_S16x512_1_0_0_1_n_n 1024 rfl rfl).symm k) = ix2 k c := funext fun a => Fin.ext (by
    match a with
    | ⟨0, _⟩ => exact (rhs_mmH_0 _ _).trans hk
    | ⟨1, _⟩ => exact rhs_mmH_1 _ _)
  rw [el, er]

theorem lhs_mmW_0 (i : S512x1.Idx) (q : dot_S512x256_S256x1_S512x1_1_0_0_1_n_n.contr.Idx) :
    (dot_S512x256_S256x1_S512x1_1_0_0_1_n_n.lhsIdx i q 0).val = (i 0).val := by
  unfold DotDims.lhsIdx
  rw [dif_neg (show ¬(0 : Fin S512x256.rank) ∈ dot_S512x256_S256x1_S512x1_1_0_0_1_n_n.lhsBatch by decide), dif_pos (show (0 : Fin S512x256.rank) ∈ dot_S512x256_S256x1_S512x1_1_0_0_1_n_n.lhsNonContracting by decide)]
  rfl
theorem lhs_mmW_1 (i : S512x1.Idx) (q : dot_S512x256_S256x1_S512x1_1_0_0_1_n_n.contr.Idx) :
    (dot_S512x256_S256x1_S512x1_1_0_0_1_n_n.lhsIdx i q 1).val = (q ⟨0, by decide⟩).val :=
  dot_S512x256_S256x1_S512x1_1_0_0_1_n_n.lhsIdx_val_of_single rfl i q
theorem rhs_mmW_0 (i : S512x1.Idx) (q : dot_S512x256_S256x1_S512x1_1_0_0_1_n_n.contr.Idx) :
    (dot_S512x256_S256x1_S512x1_1_0_0_1_n_n.rhsIdx i q 0).val = (q ⟨0, by decide⟩).val :=
  dot_S512x256_S256x1_S512x1_1_0_0_1_n_n.rhsIdx_val_of_single rfl i q
theorem rhs_mmW_1 (i : S512x1.Idx) (q : dot_S512x256_S256x1_S512x1_1_0_0_1_n_n.contr.Idx) :
    (dot_S512x256_S256x1_S512x1_1_0_0_1_n_n.rhsIdx i q 1).val = (i 1).val := by
  unfold DotDims.rhsIdx
  rw [dif_neg (show ¬(1 : Fin S256x1.rank) ∈ dot_S512x256_S256x1_S512x1_1_0_0_1_n_n.rhsBatch by decide), dif_pos (show (1 : Fin S256x1.rank) ∈ dot_S512x256_S256x1_S512x1_1_0_0_1_n_n.rhsNonContracting by decide)]
  rfl
/-- The second weight matrix times the output column: entry `(p, 0)` is row `p` paired with the column. -/
theorem mmW_apply (A : FVec Ideal S512x256 .f32) (B : FVec Ideal S256x1 .f32) (p : Fin 512) (c : Fin 1) :
    matmul (F := Ideal) dot_S512x256_S256x1_S512x1_1_0_0_1_n_n none A B (constant (F := Ideal) S512x1 .f32 0x00000000#32) (ix2 p c)
      = ∑ k : Fin 256, A (ix2 p k) * B (ix2 k c) := by
  simp only [matmul]
  rw [Ideal.matmul_constant_zero_apply, ← Equiv.sum_comp (contrEquiv1 dot_S512x256_S256x1_S512x1_1_0_0_1_n_n 256 rfl rfl).symm]
  refine Finset.sum_congr rfl fun k _ => ?_
  have hk := contrEquiv1_symm_val dot_S512x256_S256x1_S512x1_1_0_0_1_n_n 256 rfl rfl k
  have el : dot_S512x256_S256x1_S512x1_1_0_0_1_n_n.lhsIdx (ix2 p c) ((contrEquiv1 dot_S512x256_S256x1_S512x1_1_0_0_1_n_n 256 rfl rfl).symm k) = ix2 p k := funext fun a => Fin.ext (by
    match a with
    | ⟨0, _⟩ => exact lhs_mmW_0 _ _
    | ⟨1, _⟩ => exact (lhs_mmW_1 _ _).trans hk)
  have er : dot_S512x256_S256x1_S512x1_1_0_0_1_n_n.rhsIdx (ix2 p c) ((contrEquiv1 dot_S512x256_S256x1_S512x1_1_0_0_1_n_n 256 rfl rfl).symm k) = ix2 k c := funext fun a => Fin.ext (by
    match a with
    | ⟨0, _⟩ => exact (rhs_mmW_0 _ _).trans hk
    | ⟨1, _⟩ => exact rhs_mmW_1 _ _)
  rw [el, er]

/-! ## Lane sums and the extracted scalar -/

/-- The zero word read as a scalar is the number zero. -/
theorem scalar_zero_f32 : Scalar.ofBits (F := Ideal) .f32 0x00000000#32 = (0 : EReal) := Ideal.ofBits_zero_f32

/-- A sum along the columns of a matrix, read at row `p`: the sum over the columns of row `p`'s entries. -/
theorem rowsum_apply {m n : ℕ} (src : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (p : Fin m) :
    multiReduction (F := Ideal) .add [1] ⟨1, ![m]⟩ src 0x00000000#32 h hφ hacc (ix1 p) = ∑ q : Fin n, src (ix2 p q) :=
  (Ideal.multiReduction_add_single src _ h hφ hacc (ix1 p)).trans
    (Finset.sum_congr rfl fun q _ => congrArg src (lift_cols h p q))

/-- The one entry of a `[1, 1]` array, extracted at `[0, 0]`. -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) := by
  unfold extractAt
  exact congrArg v (funext fun a => Fin.ext (by
    match a with
    | ⟨0, _⟩ => rfl
    | ⟨1, _⟩ => rfl))

/-- The indicator matrix of a block of ids: entry `(b, r)` is one exactly when row `r` carries id `b`. -/
theorem pay2_apply (ids : Vec Ideal S1x1x1024 .i32) (b : Fin 16) (r : Fin 1024) :
    k0_pay2 (F := Ideal) ids (ix2 b r) = ind ids b r := by
  unfold k0_pay2 ind
  simp only [sitofp_apply, extui_apply, cmpi_apply, broadcastTo_1b_ab_apply,
    shapeCast_a_1a_apply, shapeCast_11a_a_apply]
  rw [iota_single_apply]
  exact onehot_word _ _

/-- The block the first point stores into the hidden totals before accumulating is zero. -/
theorem pay3_apply (i : S16x512.Idx) : k0_pay3 (F := Ideal) i = 0 := by
  unfold k0_pay3
  simp only [shapeCast_self, broadcast_apply]
  exact Ideal.ofBits_zero_f32

/-- The block the first point stores into the counts before accumulating is zero. -/
theorem pay4_apply (i : S1x16.Idx) : k0_pay4 (F := Ideal) i = 0 := by
  unfold k0_pay4
  simp only [shapeCast_self, broadcast_apply]
  exact Ideal.ofBits_zero_f32

/-- One block's update of the hidden totals: segment `b`'s total of hidden unit `j` grows by the sum, over
    the block's rows carrying id `b`, of the row's rectified affine image at `j`. -/
theorem pay5_apply (xb : Vec Ideal S1024x128 .f32) (w1 : Vec Ideal S128x512 .f32) (bb1 : Vec Ideal S1x512 .f32)
    (ids : Vec Ideal S1x1x1024 .i32) (acc : Vec Ideal S16x512 .f32) (b : Fin 16) (j : Fin 512) :
    k0_pay5 (F := Ideal) xb w1 bb1 ids acc (ix2 b j)
      = acc (ix2 b j) + ∑ r : Fin 1024, ind ids b r
          * max ((∑ k : Fin 128, xb (ix2 r k) * w1 (ix2 k j)) + bb1 (ix2 0 j)) 0 := by
  unfold k0_pay5
  simp only [shapeCast_self, addf_apply, mmH_apply, maximumf_apply, mmX_apply, broadcastTo_1b_ab_apply,
    shapeCast_a_1a_apply, shapeCast_1a_a_apply, broadcast_apply, pay2_apply, scalar_zero_f32]

/-- One block's update of the counts: segment `b`'s count grows by the number of the block's rows carrying id `b`. -/
theorem pay6_apply (ids : Vec Ideal S1x1x1024 .i32) (cnt : Vec Ideal S1x16 .f32) (b : Fin 16) :
    k0_pay6 (F := Ideal) ids cnt (ix2 0 b) = cnt (ix2 0 b) + ∑ r : Fin 1024, ind ids b r := by
  unfold k0_pay6
  simp only [shapeCast_a_1a_apply, addf_apply, shapeCast_1a_a_apply]
  refine congrArg (cnt (ix2 0 b) + ·) ?_
  refine (Ideal.multiReduction_add_single _ _ _ _ _ _).trans ?_
  exact Finset.sum_congr rfl fun r _ => (congrArg (k0_pay2 (F := Ideal) ids) (lift_cols _ b r)).trans (pay2_apply ids b r)

/-- The last point's output: the hidden totals paired with `W2 · w`, plus `b2 · w` once per counted token. -/
theorem pay1_apply (w2 : Vec Ideal S512x256 .f32) (wa : Vec Ideal S256x1 .f32) (bb2 : Vec Ideal S1x256 .f32)
    (wb : Vec Ideal S256x1 .f32) (tot : Vec Ideal S16x512 .f32) (cnt : Vec Ideal S1x16 .f32) (b : Fin 16) :
    k0_pay1 (F := Ideal) w2 wa bb2 wb tot cnt (ix2 0 b)
      = (∑ j : Fin 512, tot (ix2 b j) * (∑ k : Fin 256, w2 (ix2 j k) * wa (ix2 k 0)))
        + (∑ k : Fin 256, bb2 (ix2 0 k) * wb (ix2 k 0)) * cnt (ix2 0 b) := by
  unfold k0_pay1
  simp only [shapeCast_a_1a_apply, addf_apply, mulf_apply, broadcast_apply, shapeCast_1a_a_apply, extractAt_00]
  refine congrArg₂ (· + ·) ((rowsum_apply _ _ _ _ b).trans ?_)
    (congrArg (· * cnt (ix2 0 b)) ((rowsum_apply _ _ _ _ (0 : Fin 1)).trans ?_))
  · refine Finset.sum_congr rfl fun j _ => ?_
    simp only [mulf_apply, broadcastTo_1b_ab_apply, shapeCast_a_1a_apply, shapeCast_a1_a_apply, mmW_apply]
  · refine Finset.sum_congr rfl fun k _ => ?_
    simp only [shapeCast_a_1a_apply, mulf_apply, shapeCast_1a_a_apply, shapeCast_a1_a_apply]

end Cert.KernelIdeal.Pay

end
-- ==== Proof.KBlocks.lean ====
/-
  What the body's loads see: each window's block at grid point `t`, at an index, as an entry of an
  argument array.

  Point `t` of 16 sees rows `1024·t … 1024·t + 1023` of the token matrix and the same stretch of the
  segment ids (staged as a [16, 1, 1024] copy of the flat id vector, so block `t` is row `t` of it); the
  weights and biases are seen whole at every point, the two bias vectors through their [1, n] copies.
-/
import proofs.«140124_g27273042329868_cont_9to1_1261_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block indices of the windows, decided once over the 16 points: the token and id windows move
    with the point, the others stay at the origin. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

/-- Token `r` of block `t`, as a row of the token matrix. -/
def tokN (t : Fin cfg0.N) (r : Fin 1024) : Fin 16384 :=
  ⟨1024 * t.val + r.val, by have := t.isLt; have hN : cfg0.N = 16 := N_0; omega⟩

/-- The staged copies of the id vector and of the two bias vectors, as the region finds them: the
    host's reshapes of the arguments. -/
theorem V_v0 (c : Dev nD) : (V m c main_v0 : S16x1x1024.Idx → Elt F .i32)
    = shapeCast S16x1x1024 (m ((c : Thread nD τ).loc main_arg1)) shapeCasts_S16384_S16x1x1024 := by
  show StableHlo.after hostOps0 (fun b => m (c, b)) (Proc.devRef .tc main_v0) = _
  after_results
  rfl
theorem V_v1 (c : Dev nD) : (V m c main_v1 : S1x512.Idx → Elt F .f32)
    = shapeCast S1x512 (m ((c : Thread nD τ).loc main_arg3)) shapeCasts_S512_S1x512 := by
  show StableHlo.after hostOps0 (fun b => m (c, b)) (Proc.devRef .tc main_v1) = _
  after_results
  rfl
theorem V_v2 (c : Dev nD) : (V m c main_v2 : S1x256.Idx → Elt F .f32)
    = shapeCast S1x256 (m ((c : Thread nD τ).loc main_arg5)) shapeCasts_S256_S1x256 := by
  show StableHlo.after hostOps0 (fun b => m (c, b)) (Proc.devRef .tc main_v2) = _
  after_results
  rfl

/-- Block `t` of the token matrix is its rows `1024·t + r`. -/
theorem blk0_apply (c : Dev nD) (t : Fin cfg0.N) (r : Fin 1024) (k : Fin 128) :
    (iblk m c 0 t : Vec F S1024x128 .f32) (ix2 r k) = m ((c : Thread nD τ).loc main_arg0) (ix2 (tokN t r) k) := by
  unfold iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [(idx0 t).1]; omega
  | ⟨1, _⟩ => show win0_0.index t 1 * 128 + 1 * k.val = k.val; rw [(idx0 t).2]; omega

/-- Block `t` of the staged ids is the ids of the tokens `1024·t + r`. -/
theorem blk1_apply (c : Dev nD) (t : Fin cfg0.N) (r : Fin 1024) :
    (iblk m c 1 t : Vec F S1x1x1024 .i32) (ix3 0 0 r) = m ((c : Thread nD τ).loc main_arg1) (ix1 (tokN t r)) := by
  unfold iblk
  rw [View.read_apply]
  show V m c main_v0 _ = _
  rw [V_v0]
  refine shapeCast_apply _ shapeCasts_S16384_S16x1x1024 _ (ix1 (tokN t r)) ?_
  rw [Shape.rowMajor_val_three, Shape.rowMajor_val_one]
  show 1024 * t.val + r.val = ((win0_1.index t 0 * 1 + 1 * 0) * 1 + (win0_1.index t 1 * 1 + 1 * 0)) * 1024 + (win0_1.index t 2 * 1024 + 1 * r.val)
  rw [(idx1 t).1, (idx1 t).2.1, (idx1 t).2.2]; omega

/-- The first weight matrix is seen whole. -/
theorem blk2_apply (c : Dev nD) (t : Fin cfg0.N) (k : Fin 128) (j : Fin 512) :
    (iblk m c 2 t : Vec F S128x512 .f32) (ix2 k j) = m ((c : Thread nD τ).loc main_arg2) (ix2 k j) := by
  unfold iblk
  rw [View.read_apply]
  show V m c main_arg2 _ = _
  rw [V_main_arg2]
  congr 1
  funext a
  apply Fin.ext
  match a with
  | ⟨0, _⟩ => show win0_2.index t 0 * 128 + 1 * k.val = k.val; rw [(idx2 t).1]; omega
  | ⟨1, _⟩ => show win0_2.index t 1 * 512 + 1 * j.val = j.val; rw [(idx2 t).2]; omega

/-- The first bias is seen whole, as a row. -/
theorem blk3_apply (c : Dev nD) (t : Fin cfg0.N) (j : Fin 512) :
    (iblk m c 3 t : Vec F S1x512 .f32) (ix2 0 j) = m ((c : Thread nD τ).loc main_arg3) (ix1 j) := by
  unfold iblk
  rw [View.read_apply]
  show V m c main_v1 _ = _
  rw [V_v1]
  refine shapeCast_apply _ shapeCasts_S512_S1x512 _ (ix1 j) ?_
  rw [Shape.rowMajor_val_two, Shape.rowMajor_val_one]
  show j.val = (win0_3.index t 0 * 1 + 1 * 0) * 512 + (win0_3.index t 1 * 512 + 1 * j.val)
  rw [(idx3 t).1, (idx3 t).2]; omega

/-- The second weight matrix is seen whole. -/
theorem blk4_apply (c : Dev nD) (t : Fin cfg0.N) (j : Fin 512) (k : Fin 256) :
    (iblk m c 4 t : Vec F S512x256 .f32) (ix2 j k) = m ((c : Thread nD τ).loc main_arg4) (ix2 j k) := by
  unfold iblk
  rw [View.read_apply]
  show V m c main_arg4 _ = _
  rw [V_main_arg4]
  congr 1
  funext a
  apply Fin.ext
  match a with
  | ⟨0, _⟩ => show win0_4.index t 0 * 512 + 1 * j.val = j.val; rw [(idx4 t).1]; omega
  | ⟨1, _⟩ => show win0_4.index t 1 * 256 + 1 * k.val = k.val; rw [(idx4 t).2]; omega

/-- The second bias is seen whole, as a row. -/
theorem blk5_apply (c : Dev nD) (t : Fin cfg0.N) (k : Fin 256) :
    (iblk m c 5 t : Vec F S1x256 .f32) (ix2 0 k) = m ((c : Thread nD τ).loc main_arg5) (ix1 k) := by
  unfold iblk
  rw [View.read_apply]
  show V m c main_v2 _ = _
  rw [V_v2]
  refine shapeCast_apply _ shapeCasts_S256_S1x256 _ (ix1 k) ?_
  rw [Shape.rowMajor_val_two, Shape.rowMajor_val_one]
  show k.val = (win0_5.index t 0 * 1 + 1 * 0) * 256 + (win0_5.index t 1 * 256 + 1 * k.val)
  rw [(idx5 t).1, (idx5 t).2]; omega

/-- The head's weight column is seen whole. -/
theorem blk6_apply (c : Dev nD) (t : Fin cfg0.N) (k : Fin 256) :
    (iblk m c 6 t : Vec F S256x1 .f32) (ix2 k 0) = m ((c : Thread nD τ).loc main_arg6) (ix2 k 0) := by
  unfold iblk
  rw [View.read_apply]
  show V m c main_arg6 _ = _
  rw [V_main_arg6]
  congr 1
  funext a
  apply Fin.ext
  match a with
  | ⟨0, _⟩ => show win0_6.index t 0 * 256 + 1 * k.val = k.val; rw [(idx6 t).1]; omega
  | ⟨1, _⟩ => show win0_6.index t 1 * 1 + 1 * 0 = 0; rw [(idx6 t).2]

end Cert.KernelIdeal.Blocks

end
-- ==== Proof.KInv.lean ====
/-
  The running totals after each grid point, and the output the last point writes.

  After point `n` the hidden totals hold, for segment `b` and hidden unit `j`, the sum over the points
  `0 … n` of that point's contribution — the sum, over the rows of the point's block that carry id `b`,
  of the row's rectified affine image at `j` — and the counts hold the number of such rows. This is an
  induction over the points: the first point clears and adds, every later one adds. The last point then
  writes the linear tail of the totals and counts after it.
-/
import proofs.«140124_g27273042329868_cont_9to1_1261_3_alg».proof.Proof.KPieces
import proofs.«140124_g27273042329868_cont_9to1_1261_3_alg».proof.Proof.KPay
import proofs.«140124_g27273042329868_cont_9to1_1261_3_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces Cert.KernelIdeal.Pay

variable (m : (ℓ : Loc nD τ sig) → Buf (Elt Ideal) ℓ)

/-- The blocks the body loads at point `t`, each at its literal type. -/
abbrev xb (c : Dev nD) (t : Fin cfg0.N) : Vec Ideal S1024x128 .f32 := iblk m c 0 t
abbrev ids (c : Dev nD) (t : Fin cfg0.N) : Vec Ideal S1x1x1024 .i32 := iblk m c 1 t
abbrev w1 (c : Dev nD) (t : Fin cfg0.N) : Vec Ideal S128x512 .f32 := iblk m c 2 t
abbrev bb1 (c : Dev nD) (t : Fin cfg0.N) : Vec Ideal S1x512 .f32 := iblk m c 3 t
abbrev w2 (c : Dev nD) (t : Fin cfg0.N) : Vec Ideal S512x256 .f32 := iblk m c 4 t
abbrev bb2 (c : Dev nD) (t : Fin cfg0.N) : Vec Ideal S1x256 .f32 := iblk m c 5 t
abbrev wc (c : Dev nD) (t : Fin cfg0.N) : Vec Ideal S256x1 .f32 := iblk m c 6 t

/-- The totals and counts a point leaves, each at its literal type. -/
abbrev tot (c : Dev nD) (n : ℕ) (hn : n < cfg0.N) : Vec Ideal S16x512 .f32 := (outsAt0 m c n hn).2.1
abbrev cnt (c : Dev nD) (n : ℕ) (hn : n < cfg0.N) : Vec Ideal S1x16 .f32 := (outsAt0 m c n hn).2.2

/-- The first point: cleared, then updated by its block. -/
theorem step_A (c : Dev nD) (t : Fin cfg0.N) (h0 : t.val % 16 = 0) (h1 : ¬t.val % 16 = 15) :
    tot m c t.val t.isLt = k0_pay5 (xb m c t) (w1 m c t) (bb1 m c t) (ids m c t) (k0_pay3 (F := Ideal))
    ∧ cnt m c t.val t.isLt = k0_pay6 (ids m c t) (k0_pay4 (F := Ideal)) := by
  unfold tot cnt
  rw [outsAt0_A m c t h0 h1]
  dsimp only
  exact ⟨sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
    sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)⟩

/-- A middle point: what the point before left, updated by its block. -/
theorem step_B (c : Dev nD) (t : Fin cfg0.N) (h0 : ¬t.val % 16 = 0) (h1 : ¬t.val % 16 = 15) :
    tot m c t.val t.isLt = k0_pay5 (xb m c t) (w1 m c t) (bb1 m c t) (ids m c t)
        (tot m c (t.val - 1) (Nat.lt_of_le_of_lt (Nat.sub_le _ _) t.isLt))
    ∧ cnt m c t.val t.isLt = k0_pay6 (ids m c t) (cnt m c (t.val - 1) (Nat.lt_of_le_of_lt (Nat.sub_le _ _) t.isLt)) := by
  unfold tot cnt
  rw [outsAt0_B m c t h0 h1]
  dsimp only
  exact ⟨sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
    sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2⟩

/-- The last point: updated likewise, and the output block written from the updated totals and counts. -/
theorem step_C (c : Dev nD) (t : Fin cfg0.N) (h0 : ¬t.val % 16 = 0) (h1 : t.val % 16 = 15) :
    tot m c t.val t.isLt = k0_pay5 (xb m c t) (w1 m c t) (bb1 m c t) (ids m c t)
        (tot m c (t.val - 1) (Nat.lt_of_le_of_lt (Nat.sub_le _ _) t.isLt))
    ∧ cnt m c t.val t.isLt = k0_pay6 (ids m c t) (cnt m c (t.val - 1) (Nat.lt_of_le_of_lt (Nat.sub_le _ _) t.isLt))
    ∧ ((outsAt0 m c t.val t.isLt).1 : Vec Ideal S1x16 .f32)
        = k0_pay1 (w2 m c t) (wc m c t) (bb2 m c t) (wc m c t)
            (k0_pay5 (xb m c t) (w1 m c t) (bb1 m c t) (ids m c t) (tot m c (t.val - 1) (Nat.lt_of_le_of_lt (Nat.sub_le _ _) t.isLt)))
            (k0_pay6 (ids m c t) (cnt m c (t.val - 1) (Nat.lt_of_le_of_lt (Nat.sub_le _ _) t.isLt))) := by
  unfold tot cnt
  rw [outsAt0_C m c t h0 h1]
  dsimp only
  exact ⟨sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
    sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
    oC7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2⟩

/-- Point `t`'s contribution to segment `b`'s total of hidden unit `j` (zero past the grid). -/
def dG (c : Dev nD) (t : ℕ) (b : Fin 16) (j : Fin 512) : EReal :=
  if h : t < cfg0.N then
    ∑ r : Fin 1024, ind (ids m c ⟨t, h⟩) b r
      * max ((∑ k : Fin 128, xb m c ⟨t, h⟩ (ix2 r k) * w1 m c ⟨t, h⟩ (ix2 k j)) + bb1 m c ⟨t, h⟩ (ix2 0 j)) 0
  else 0

/-- Point `t`'s contribution to segment `b`'s count. -/
def dC (c : Dev nD) (t : ℕ) (b : Fin 16) : EReal :=
  if h : t < cfg0.N then ∑ r : Fin 1024, ind (ids m c ⟨t, h⟩) b r else 0

/-- After point `n` the totals and counts are the sums of the contributions of the points `0 … n`. -/
theorem inv (c : Dev nD) : ∀ (n : ℕ) (hn : n < cfg0.N),
    (∀ (b : Fin 16) (j : Fin 512), tot m c n hn (ix2 b j) = ∑ t ∈ Finset.range (n + 1), dG m c t b j)
    ∧ (∀ b : Fin 16, cnt m c n hn (ix2 0 b) = ∑ t ∈ Finset.range (n + 1), dC m c t b)
  | 0, hn => by
    have hs := step_A m c ⟨0, hn⟩ rfl (by dsimp only; omega)
    refine ⟨fun b j => ?_, fun b => ?_⟩
    · rw [show tot m c 0 hn = _ from hs.1, pay5_apply, pay3_apply, zero_add, Finset.sum_range_one, dG, dif_pos hn]
    · rw [show cnt m c 0 hn = _ from hs.2, pay6_apply, pay4_apply, zero_add, Finset.sum_range_one, dC, dif_pos hn]
  | n + 1, hn => by
    have hN : cfg0.N = 16 := N_0
    have ih := inv c n (Nat.lt_of_succ_lt hn)
    have h0 : ¬(⟨n + 1, hn⟩ : Fin cfg0.N).val % 16 = 0 := by dsimp only; omega
    have key : tot m c (n + 1) hn = k0_pay5 (xb m c ⟨n + 1, hn⟩) (w1 m c ⟨n + 1, hn⟩) (bb1 m c ⟨n + 1, hn⟩) (ids m c ⟨n + 1, hn⟩)
          (tot m c n (Nat.lt_of_succ_lt hn))
        ∧ cnt m c (n + 1) hn = k0_pay6 (ids m c ⟨n + 1, hn⟩) (cnt m c n (Nat.lt_of_succ_lt hn)) := by
      by_cases h1 : (⟨n + 1, hn⟩ : Fin cfg0.N).val % 16 = 15
      · exact ⟨(step_C m c ⟨n + 1, hn⟩ h0 h1).1, (step_C m c ⟨n + 1, hn⟩ h0 h1).2.1⟩
      · exact step_B m c ⟨n + 1, hn⟩ h0 h1
    refine ⟨fun b j => ?_, fun b => ?_⟩
    · rw [key.1, pay5_apply, ih.1 b j, Finset.sum_range_succ _ (n + 1), dG, dif_pos hn]
    · rw [key.2, pay6_apply, ih.2 b, Finset.sum_range_succ _ (n + 1), dC, dif_pos hn]

end Cert.KernelIdeal.Inv

end
-- ==== Proof.Spec.lean ====
/-
  The mathematics of the claim, stated over plain index types and free of either program.

  A batch of 16384 tokens, each a row of 128 numbers, is pushed through a two-layer network — a hidden
  layer of 512 rectified units, a linear layer to 256 features — and a linear head reads one number off
  the 256 features of each token; the numbers of the tokens that carry segment id `b` are then added up,
  for each of the 16 segments `b`. A token whose id is none of `0 … 15` is counted nowhere.

  `refR` is that sum as written: per token, then per segment.  `kerR` is the same number with the
  linear tail pulled out of the token sum: the rectified hidden activations of a segment's tokens are
  added up first (over 16 blocks of 1024 tokens), the 512 totals are paired with `W2 · w`, and the bias
  term `b2 · w` is counted once per token of the segment.  The two agree wherever every entry is a real
  number (`Algebra.lean`); on the extended reals the distributive law they lean on fails at infinities.
-/
import Idealize.ShloMosaic.PureOps.Ideal

noncomputable section

namespace Cert.Spec

open Finset

/-- Token `n` carries segment id `b`: its 32-bit id is the word of the number `b`. -/
def hit (seg : Fin 16384 → BitVec 32) (n : Fin 16384) (b : Fin 16) : Prop := BitVec.ofNat 32 b.val = seg n

instance (seg : Fin 16384 → BitVec 32) (n : Fin 16384) (b : Fin 16) : Decidable (hit seg n b) := by
  unfold hit; infer_instance

/-- The indicator of `hit`, as an extended real. -/
def onehot (seg : Fin 16384 → BitVec 32) (n : Fin 16384) (b : Fin 16) : EReal := if hit seg n b then 1 else 0

/-- Hidden unit `j` of token `n`: the rectified affine image of the token's row. -/
def hid (x : Fin 16384 → Fin 128 → EReal) (W1 : Fin 128 → Fin 512 → EReal) (b1 : Fin 512 → EReal)
    (n : Fin 16384) (j : Fin 512) : EReal :=
  max ((∑ k : Fin 128, x n k * W1 k j) + b1 j) 0

/-- Token `r` of block `t`: the tokens are cut into 16 consecutive blocks of 1024. -/
def tok (t : Fin 16) (r : Fin 1024) : Fin 16384 := ⟨1024 * t.val + r.val, by omega⟩

/-- The number of segment `b`, the head applied per token and the tokens of the segment added up. -/
def refR (x : Fin 16384 → Fin 128 → EReal) (seg : Fin 16384 → BitVec 32) (W1 : Fin 128 → Fin 512 → EReal)
    (b1 : Fin 512 → EReal) (W2 : Fin 512 → Fin 256 → EReal) (b2 : Fin 256 → EReal) (w : Fin 256 → EReal)
    (b : Fin 16) : EReal :=
  ∑ n ∈ univ.filter (fun n => hit seg n b),
    ∑ k : Fin 256, ((∑ j : Fin 512, hid x W1 b1 n j * W2 j k) + b2 k) * w k

/-- The number of segment `b`, the hidden activations of the segment added up block by block first and
    the linear tail applied once to the totals. -/
def kerR (x : Fin 16384 → Fin 128 → EReal) (seg : Fin 16384 → BitVec 32) (W1 : Fin 128 → Fin 512 → EReal)
    (b1 : Fin 512 → EReal) (W2 : Fin 512 → Fin 256 → EReal) (b2 : Fin 256 → EReal) (w : Fin 256 → EReal)
    (b : Fin 16) : EReal :=
  (∑ j : Fin 512, (∑ t : Fin 16, ∑ r : Fin 1024, onehot seg (tok t r) b * hid x W1 b1 (tok t r) j)
      * (∑ k : Fin 256, W2 j k * w k))
    + (∑ k : Fin 256, b2 k * w k) * (∑ t : Fin 16, ∑ r : Fin 1024, onehot seg (tok t r) b)

/-- Every entry is a real number. -/
def Fin1 {ι : Type} (f : ι → EReal) : Prop := ∀ i, f i ≠ ⊤ ∧ f i ≠ ⊥
def Fin2 {ι κ : Type} (f : ι → κ → EReal) : Prop := ∀ i k, f i k ≠ ⊤ ∧ f i k ≠ ⊥

end Cert.Spec

end
-- ==== Proof.SpecV.lean ====
/-
  The two readings of the segment totals (`Spec.lean`) over arrays indexed by shape: a matrix is read at
  `(i, j)`, a vector at `i`, a one-column matrix at `(i, 0)`; the result is the vector of the 16 segments.
-/
import proofs.«140124_g27273042329868_cont_9to1_1261_3_alg».proof.Proof.Spec
import Idealize.ShloMosaic.Lib.ValueIdx

noncomputable section

namespace Cert.Spec

open Idealize.ShloMosaic Idealize.ShloMosaic.ValueIdx

/-- A rank-2 array by row and column. -/
def mat {a b : Nat} (v : (⟨2, ![a, b]⟩ : Shape).Idx → EReal) : Fin a → Fin b → EReal := fun i j => v (ix2 i j)
/-- A rank-1 array by position. -/
def vec {α : Type} {a : Nat} (v : (⟨1, ![a]⟩ : Shape).Idx → α) : Fin a → α := fun i => v (ix1 i)
/-- A one-column matrix by row. -/
def col {a : Nat} (v : (⟨2, ![a, 1]⟩ : Shape).Idx → EReal) : Fin a → EReal := fun i => v (ix2 i 0)

/-- The segment totals, the head applied per token (`refR`), of the seven argument arrays. -/
def R (a0 : (⟨2, ![16384, 128]⟩ : Shape).Idx → EReal) (a1 : (⟨1, ![16384]⟩ : Shape).Idx → BitVec 32)
    (a2 : (⟨2, ![128, 512]⟩ : Shape).Idx → EReal) (a3 : (⟨1, ![512]⟩ : Shape).Idx → EReal)
    (a4 : (⟨2, ![512, 256]⟩ : Shape).Idx → EReal) (a5 : (⟨1, ![256]⟩ : Shape).Idx → EReal)
    (a6 : (⟨2, ![256, 1]⟩ : Shape).Idx → EReal) : (⟨1, ![16]⟩ : Shape).Idx → EReal :=
  fun i => refR (mat a0) (vec a1) (mat a2) (vec a3) (mat a4) (vec a5) (col a6) (i 0)

/-- The segment totals, the linear tail applied once to the per-segment hidden totals (`kerR`). -/
def K (a0 : (⟨2, ![16384, 128]⟩ : Shape).Idx → EReal) (a1 : (⟨1, ![16384]⟩ : Shape).Idx → BitVec 32)
    (a2 : (⟨2, ![128, 512]⟩ : Shape).Idx → EReal) (a3 : (⟨1, ![512]⟩ : Shape).Idx → EReal)
    (a4 : (⟨2, ![512, 256]⟩ : Shape).Idx → EReal) (a5 : (⟨1, ![256]⟩ : Shape).Idx → EReal)
    (a6 : (⟨2, ![256, 1]⟩ : Shape).Idx → EReal) : (⟨1, ![16]⟩ : Shape).Idx → EReal :=
  fun i => kerR (mat a0) (vec a1) (mat a2) (vec a3) (mat a4) (vec a5) (col a6) (i 0)

end Cert.Spec

end
-- ==== Proof.KFinal.lean ====
/-
  The kernel's result array, as a function of the arguments.

  Only the last grid point writes the output window back, and its block is the whole [1, 16] array; so
  after the run that array holds what the last point stored: for each segment `b`, the hidden totals
  after all 16 points paired with `W2 · w`, plus `b2 · w` times the count of the segment's tokens. With
  the totals and counts read as sums over the 16 blocks of 1024 tokens (the invariant) and every block
  read off the argument arrays, that is `kerR` of the arguments. The host then flattens [1, 16] to [16].
-/
import proofs.«140124_g27273042329868_cont_9to1_1261_3_alg».proof.Proof.KInv
import proofs.«140124_g27273042329868_cont_9to1_1261_3_alg».proof.Proof.SpecV

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pay Cert.KernelIdeal.Blocks Cert.KernelIdeal.Inv

variable (m : (ℓ : Loc nD τ sig) → Buf (Elt Ideal) ℓ) (ρ : Dev nD → PrngReg)

theorem hN : cfg0.N = 16 := N_0

/-- The last grid point. -/
abbrev tLast : Fin cfg0.N := ⟨15, by rw [hN]; decide⟩

/-- What the last point leaves in the output window's buffer, as contents of the [1, 16] result array. -/
abbrev result (c : Dev nD) : Buf (Elt Ideal) ((c : Thread nD τ).loc main_v3) := (outsAt0 m c 15 tLast.isLt).1

/-- The one write-back, at the last point, writes it: the block at the origin of the [1, 16] array is the array. -/
theorem flushed_eq (c : Dev nD) (t : Fin cfg0.N) (hf : (cfg0.win 7).flush t = true) :
    (dats m 0 c).flushed 7 t = ((cfg0.win 7).blk t).view.read (Elt Ideal) (result m c) := by
  have h15 : t.val = 15 := by have := (flush0_7 t).mp hf; have := t.isLt; have := hN; omega
  obtain rfl : t = tLast := Fin.ext h15
  show (cfg0.win 7).cut (grid0.coords tLast) ((dats m 0 c).after 7 tLast) = _
  rw [after0_7]
  have hz' : (fun a => win0_7.index tLast a * main_v3.ty.shape.size a) = fun _ => 0 :=
    funext fun a => by fin_cases a <;> decide +kernel
  exact (Memref.read_access_unit_zero (Elt Ideal) main_v3 hz' (fun a => by rw [congrFun hz' a]; simp) (result m c)).symm

/-- So the result array ends holding it: the last point's block covers the array. -/
theorem final_o (c : Dev nD) : (dats m 0 c).arrAt 7 cfg0.N = result m c :=
  (dats m 0 c).arrAt_eq_of_cover 7 (result m c) (flushed_eq m c) fun i =>
    ⟨tLast, (flush0_7 tLast).mpr rfl, by
      show i ∈ ((View.whole main_v3).slice (win0_7.rect tLast)).set
      rw [View.set_slice_whole, Rect.mem_set_unit]
      intro a
      have h0 : (i 0 : Nat) < 1 := (i 0).isLt
      have h1 : (i 1 : Nat) < 16 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 16 from by decide +kernel]; omega⟩

/-- A block's token, as the specification numbers it. -/
theorem tokN_eq (t : Fin 16) (h : t.val < cfg0.N) (r : Fin 1024) : tokN ⟨t.val, h⟩ r = Cert.Spec.tok t r := rfl

/-- One point's contribution to the hidden totals, over the argument arrays. -/
theorem dG_eq (c : Dev nD) (t : Fin 16) (b : Fin 16) (j : Fin 512) :
    dG m c t.val b j = ∑ r : Fin 1024, Cert.Spec.onehot (Cert.Spec.vec (m ((c : Thread nD τ).loc main_arg1))) (Cert.Spec.tok t r) b
      * Cert.Spec.hid (Cert.Spec.mat (m ((c : Thread nD τ).loc main_arg0))) (Cert.Spec.mat (m ((c : Thread nD τ).loc main_arg2))) (Cert.Spec.vec (m ((c : Thread nD τ).loc main_arg3))) (Cert.Spec.tok t r) j := by
  have h : t.val < cfg0.N := by rw [hN]; exact t.isLt
  unfold dG
  rw [dif_pos h]
  refine Finset.sum_congr rfl fun r _ => ?_
  unfold ind Cert.Spec.onehot Cert.Spec.hit Cert.Spec.hid Cert.Spec.mat Cert.Spec.vec
  rw [show ids m c ⟨t.val, h⟩ (ix3 0 0 r) = _ from blk1_apply m c ⟨t.val, h⟩ r,
    show bb1 m c ⟨t.val, h⟩ (ix2 0 j) = _ from blk3_apply m c ⟨t.val, h⟩ j, tokN_eq t h r]
  congr 3
  refine Finset.sum_congr rfl fun k _ => ?_
  rw [show xb m c ⟨t.val, h⟩ (ix2 r k) = _ from blk0_apply m c ⟨t.val, h⟩ r k,
    show w1 m c ⟨t.val, h⟩ (ix2 k j) = _ from blk2_apply m c ⟨t.val, h⟩ k j, tokN_eq t h r]

/-- One point's contribution to the counts, over the argument arrays. -/
theorem dC_eq (c : Dev nD) (t : Fin 16) (b : Fin 16) :
    dC m c t.val b = ∑ r : Fin 1024, Cert.Spec.onehot (Cert.Spec.vec (m ((c : Thread nD τ).loc main_arg1))) (Cert.Spec.tok t r) b := by
  have h : t.val < cfg0.N := by rw [hN]; exact t.isLt
  unfold dC
  rw [dif_pos h]
  refine Finset.sum_congr rfl fun r _ => ?_
  unfold ind Cert.Spec.onehot Cert.Spec.hit Cert.Spec.vec
  rw [show ids m c ⟨t.val, h⟩ (ix3 0 0 r) = _ from blk1_apply m c ⟨t.val, h⟩ r, tokN_eq t h r]

/-- The hidden totals after the last point, over the argument arrays. -/
theorem tot_last (c : Dev nD) (b : Fin 16) (j : Fin 512) :
    tot m c 15 tLast.isLt (ix2 b j)
      = ∑ t : Fin 16, ∑ r : Fin 1024, Cert.Spec.onehot (Cert.Spec.vec (m ((c : Thread nD τ).loc main_arg1))) (Cert.Spec.tok t r) b
          * Cert.Spec.hid (Cert.Spec.mat (m ((c : Thread nD τ).loc main_arg0))) (Cert.Spec.mat (m ((c : Thread nD τ).loc main_arg2))) (Cert.Spec.vec (m ((c : Thread nD τ).loc main_arg3))) (Cert.Spec.tok t r) j := by
  rw [(inv m c 15 tLast.isLt).1 b j, Finset.sum_range (fun t => dG m c t b j)]
  exact Finset.sum_congr rfl fun t _ => dG_eq m c t b j

/-- The counts after the last point, over the argument arrays. -/
theorem cnt_last (c : Dev nD) (b : Fin 16) :
    cnt m c 15 tLast.isLt (ix2 0 b)
      = ∑ t : Fin 16, ∑ r : Fin 1024, Cert.Spec.onehot (Cert.Spec.vec (m ((c : Thread nD τ).loc main_arg1))) (Cert.Spec.tok t r) b := by
  rw [(inv m c 15 tLast.isLt).2 b, Finset.sum_range (fun t => dC m c t b)]
  exact Finset.sum_congr rfl fun t _ => dC_eq m c t b

/-- The folded head `W2 · w` at hidden unit `j`, over the argument arrays. -/
theorem head_w (c : Dev nD) (j : Fin 512) :
    (∑ k : Fin 256, w2 m c tLast (ix2 j k) * wc m c tLast (ix2 k 0))
      = ∑ k : Fin 256, Cert.Spec.mat (m ((c : Thread nD τ).loc main_arg4)) j k * Cert.Spec.col (m ((c : Thread nD τ).loc main_arg6)) k := by
  refine Finset.sum_congr rfl fun k _ => ?_
  unfold Cert.Spec.mat Cert.Spec.col
  rw [show w2 m c tLast (ix2 j k) = _ from blk4_apply m c tLast j k,
    show wc m c tLast (ix2 k 0) = _ from blk6_apply m c tLast k]

/-- The folded bias `b2 · w`, over the argument arrays. -/
theorem head_b (c : Dev nD) :
    (∑ k : Fin 256, bb2 m c tLast (ix2 0 k) * wc m c tLast (ix2 k 0))
      = ∑ k : Fin 256, Cert.Spec.vec (α := EReal) (m ((c : Thread nD τ).loc main_arg5)) k * Cert.Spec.col (m ((c : Thread nD τ).loc main_arg6)) k := by
  refine Finset.sum_congr rfl fun k _ => ?_
  unfold Cert.Spec.vec Cert.Spec.col
  rw [show bb2 m c tLast (ix2 0 k) = _ from blk5_apply m c tLast k,
    show wc m c tLast (ix2 k 0) = _ from blk6_apply m c tLast k]

/-- What the last point stores into the output block: the tail of the totals and counts after it. -/
theorem result_eq_pay (c : Dev nD) :
    (result m c : Vec Ideal S1x16 .f32)
      = k0_pay1 (w2 m c tLast) (wc m c tLast) (bb2 m c tLast) (wc m c tLast) (tot m c 15 tLast.isLt) (cnt m c 15 tLast.isLt) := by
  have hC := step_C m c tLast (by dsimp only; omega) (by dsimp only)
  show ((outsAt0 m c tLast.val tLast.isLt).1 : Vec Ideal S1x16 .f32) = _
  rw [hC.2.2, ← hC.1, ← hC.2.1]

/-- The result array at segment `b` is `kerR` of the arguments. -/
theorem result_apply (c : Dev nD) (b : Fin 16) :
    (result m c : Vec Ideal S1x16 .f32) (ix2 0 b)
      = Cert.Spec.kerR (Cert.Spec.mat (m ((c : Thread nD τ).loc main_arg0))) (Cert.Spec.vec (m ((c : Thread nD τ).loc main_arg1))) (Cert.Spec.mat (m ((c : Thread nD τ).loc main_arg2))) (Cert.Spec.vec (m ((c : Thread nD τ).loc main_arg3)))
          (Cert.Spec.mat (m ((c : Thread nD τ).loc main_arg4))) (Cert.Spec.vec (m ((c : Thread nD τ).loc main_arg5))) (Cert.Spec.col (m ((c : Thread nD τ).loc main_arg6))) b := by
  have e1 : (∑ j : Fin 512, tot m c 15 tLast.isLt (ix2 b j) * (∑ k : Fin 256, w2 m c tLast (ix2 j k) * wc m c tLast (ix2 k 0)))
      = ∑ j : Fin 512, (∑ t : Fin 16, ∑ r : Fin 1024, Cert.Spec.onehot (Cert.Spec.vec (m ((c : Thread nD τ).loc main_arg1))) (Cert.Spec.tok t r) b
          * Cert.Spec.hid (Cert.Spec.mat (m ((c : Thread nD τ).loc main_arg0))) (Cert.Spec.mat (m ((c : Thread nD τ).loc main_arg2))) (Cert.Spec.vec (m ((c : Thread nD τ).loc main_arg3))) (Cert.Spec.tok t r) j)
          * (∑ k : Fin 256, Cert.Spec.mat (m ((c : Thread nD τ).loc main_arg4)) j k * Cert.Spec.col (m ((c : Thread nD τ).loc main_arg6)) k) :=
    Finset.sum_congr rfl fun j _ => by rw [tot_last m c b j, head_w m c j]
  rw [result_eq_pay m c, pay1_apply, e1, head_b m c, cnt_last m c b]
  rfl

/-- The host's flattening of the result array: the program's result is `K` of the arguments. -/
theorem tail_eq (c : Dev nD) :
    Pipeline.afterTail₀ cfgs (dats m) 0 (V0 m) [hostOps1] c main_v4
      = Cert.Spec.K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v4) = _
  after_results
  rw [(Pipeline.withArrays_arr spec0 launch0.win.arr_inj c _ _ 7).trans (final_o m c)]
  funext i
  unfold Cert.Spec.K
  rw [← result_apply m c (i 0)]
  refine shapeCast_apply _ shapeCasts_S1x16_S16 i (ix2 0 (i 0)) ?_
  rw [Shape.rowMajor_val_two, Shape.rowMajor_val_one]
  show 0 * 16 + (i 0).val = (i 0).val
  omega

/-- The run, read: the program's result at `K` of the arguments, the arguments unchanged. -/
theorem run : θ_run defs (onTc (τ := τ) (main (F := Ideal))) ⟨m, fun _ => 0, ρ⟩ fun r => ∀ c : Dev nD,
      r.2.mem ((c.tc : Thread nD τ).loc main_v4) = Cert.Spec.K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.KValue

end
-- ==== Proof.RefValue.lean ====
/-
  The reference's result, read index by index: it is the per-segment sum `refR` of the argument arrays.

  The program applies the two layers and the head to every token (three matrix products, two bias
  additions, one rectification), flattens the column of per-token numbers, and adds each number into the
  entry of a zero vector of length 16 named by the token's segment id; an id outside `0 … 15`, read as a
  signed number, names no entry and its token is dropped.
-/
import proofs.«140124_g27273042329868_cont_9to1_1261_3_alg».proof.Proof.Gen.ReferenceIdeal.Run
import proofs.«140124_g27273042329868_cont_9to1_1261_3_alg».proof.Proof.Gen.ReferenceIdeal.Read
import proofs.«140124_g27273042329868_cont_9to1_1261_3_alg».proof.Proof.SpecV

noncomputable section

namespace Cert.ReferenceIdeal.RefValue

open Idealize.ShloMosaic Idealize.ShloMosaic.ValueIdx Cert.ReferenceIdeal Cert.ReferenceIdeal.Gen

/-- A 32-bit word read as a signed number lies in `0 … 15` and equals `b` exactly when it is the word of `b`. -/
theorem word_iff (v : BitVec 32) (b : Nat) (hb : b < 16) :
    (0 ≤ v.toInt ∧ v.toInt < 16 ∧ v.toInt.toNat = b) ↔ BitVec.ofNat 32 b = v := by
  have hv := v.isLt
  rw [BitVec.toInt_eq_toNat_cond]
  constructor
  · rintro ⟨h0, h1, h2⟩
    apply BitVec.eq_of_toNat_eq
    rw [BitVec.toNat_ofNat]
    by_cases hc : 2 * v.toNat < 2 ^ 32
    · rw [if_pos hc] at h0 h1 h2; omega
    · rw [if_neg hc] at h0 h1 h2; omega
  · rintro rfl
    rw [BitVec.toNat_ofNat]
    have hm : b % 2 ^ 32 = b := Nat.mod_eq_of_lt (by omega)
    rw [hm, if_pos (by omega)]
    omega

/-- The start of update `j`'s window on the operand's one axis is its segment id, read signed. -/
theorem start_eq (j : S16384.Idx) (idx : IVec S16384x1 32) (a : Fin S16.rank) :
    scatter_S16_S16384x1_S16384_n_0_0_1.start j idx a = (idx (ix2 (j 0) 0)).toInt := by
  obtain rfl : a = 0 := Subsingleton.elim _ _
  unfold ScatterDims.start
  rw [dif_pos (show (0 : Fin S16.rank) ∈ scatter_S16_S16384x1_S16384_n_0_0_1.scatterDimsToOperandDims by decide)]
  have hsi : scatter_S16_S16384x1_S16384_n_0_0_1.siIdx j ⟨List.idxOf (0 : Fin S16.rank) scatter_S16_S16384x1_S16384_n_0_0_1.scatterDimsToOperandDims,
      List.idxOf_lt_length_iff.2 (show (0 : Fin S16.rank) ∈ scatter_S16_S16384x1_S16384_n_0_0_1.scatterDimsToOperandDims by decide)⟩ = ix2 (j 0) 0 := by
    funext b; refine Fin.ext ?_
    match b with
    | ⟨0, _⟩ => rfl
    | ⟨1, _⟩ => rfl
  rw [hsi]
  rfl

/-- The operand's one axis is inserted: the window coordinate on it is `0`. -/
theorem window_eq (j : S16384.Idx) (a : Fin S16.rank) :
    scatter_S16_S16384x1_S16384_n_0_0_1.window j a = 0 := by
  obtain rfl : a = 0 := Subsingleton.elim _ _
  unfold ScatterDims.window
  rw [dif_neg (show ¬ (0 : Fin S16.rank) ∈ scatter_S16_S16384x1_S16384_n_0_0_1.sKept by decide)]

/-- Update `j` lands on entry `i` exactly when its segment id is the word of `i`'s coordinate. -/
theorem resultIdx_iff (j : S16384.Idx) (idx : IVec S16384x1 32) (i : S16.Idx) :
    scatter_S16_S16384x1_S16384_n_0_0_1.resultIdx? j idx = some i ↔ BitVec.ofNat 32 (i 0).val = idx (ix2 (j 0) 0) := by
  have hi : (i 0).val < 16 := (i 0).isLt
  rw [← word_iff _ _ hi]
  unfold ScatterDims.resultIdx?
  by_cases h : ∀ a, 0 ≤ scatter_S16_S16384x1_S16384_n_0_0_1.start j idx a + scatter_S16_S16384x1_S16384_n_0_0_1.window j a ∧
      scatter_S16_S16384x1_S16384_n_0_0_1.start j idx a + scatter_S16_S16384x1_S16384_n_0_0_1.window j a < S16.size a
  · rw [dif_pos h]
    have h0 := h 0
    rw [start_eq, window_eq] at h0
    have h16 : S16.size 0 = 16 := rfl
    rw [h16] at h0
    constructor
    · intro he
      have he' := congrFun (Option.some.inj he) 0
      have he'' := congrArg Fin.val he'
      simp only [start_eq, window_eq] at he''
      refine ⟨by omega, by omega, ?_⟩
      simpa using he''
    · rintro ⟨_, _, h2⟩
      congr 1
      funext a
      obtain rfl : a = 0 := Subsingleton.elim _ _
      refine Fin.ext ?_
      simp only [start_eq, window_eq]
      simpa using h2
  · rw [dif_neg h]
    constructor
    · intro he; exact absurd he (by simp)
    · rintro ⟨h0, h1, _⟩
      exfalso; apply h
      intro a
      obtain rfl : a = 0 := Subsingleton.elim _ _
      rw [start_eq, window_eq]
      have h16 : S16.size 0 = 16 := rfl
      rw [h16]
      constructor <;> omega

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- The rectified hidden layer at token `n`, unit `j`. -/
theorem hidden_at (x0 : (⟨S16384x128, .f32⟩ : BufTy).Contents (Elt Ideal)) (x2 : (⟨S128x512, .f32⟩ : BufTy).Contents (Elt Ideal))
    (x3 : (⟨S512, .f32⟩ : BufTy).Contents (Elt Ideal)) (n : Fin 16384) (j : Fin 512) :
    Read.val_main_v4 (F := Ideal) x0 x2 x3 (ix2 n j) = Spec.hid (Spec.mat x0) (Spec.mat x2) (Spec.vec x3) n j := by
  rw [Read.val_main_v4_apply, Read.val_main_v3_apply, Read.val_main_v0_apply, Read.val_main_v2_apply,
    Read.val_main_v1_apply, Read.val_main_call0_v0_apply, Read.val_main_call0_cst_apply]
  have e1 : ∀ k : Fin 128, Read.lidx_main_v0 (ix2 n j) k = ix2 n k := fun k => funext fun a => by
    match a with
    | ⟨0, _⟩ => rfl
    | ⟨1, _⟩ => rfl
  have e2 : ∀ k : Fin 128, Read.ridx_main_v0 (ix2 n j) k = ix2 k j := fun k => funext fun a => by
    match a with
    | ⟨0, _⟩ => rfl
    | ⟨1, _⟩ => rfl
  have e3 : Read.idx_main_v1 (Read.idx_main_v2 (ix2 n j)) = ix1 j := funext fun a => by
    match a with
    | ⟨0, _⟩ => rfl
  simp only [e1, e2, e3, Ideal.addf_def, Ideal.maximumf_def, Ideal.ofBits_def, Ideal.ofBits_zero_f32]
  rfl

/-- The head's number for token `n`: the linear layer's 256 features, each the hidden units paired with its
    column plus its bias, paired with the head's weights. -/
theorem token_at (x0 : (⟨S16384x128, .f32⟩ : BufTy).Contents (Elt Ideal)) (x2 : (⟨S128x512, .f32⟩ : BufTy).Contents (Elt Ideal))
    (x3 : (⟨S512, .f32⟩ : BufTy).Contents (Elt Ideal)) (x4 : (⟨S512x256, .f32⟩ : BufTy).Contents (Elt Ideal))
    (x5 : (⟨S256, .f32⟩ : BufTy).Contents (Elt Ideal)) (x6 : (⟨S256x1, .f32⟩ : BufTy).Contents (Elt Ideal)) (n : Fin 16384) :
    Read.val_main_v10 (F := Ideal) x0 x2 x3 x4 x5 x6 (ix1 n)
      = ∑ k : Fin 256, ((∑ j : Fin 512, Spec.hid (Spec.mat x0) (Spec.mat x2) (Spec.vec x3) n j * Spec.mat x4 j k) + Spec.vec x5 k)
          * Spec.col x6 k := by
  rw [Read.val_main_v10_apply, Read.val_main_v9_apply]
  refine Finset.sum_congr rfl fun k _ => ?_
  have e1 : Read.lidx_main_v9 (Read.idx_main_v10 (ix1 n)) k = ix2 n k := funext fun a => by
    match a with
    | ⟨0, _⟩ => exact Fin.ext (Nat.div_one _)
    | ⟨1, _⟩ => rfl
  have e2 : Read.ridx_main_v9 (Read.idx_main_v10 (ix1 n)) k = ix2 k 0 := funext fun a => by
    match a with
    | ⟨0, _⟩ => rfl
    | ⟨1, _⟩ => rfl
  rw [e1, e2, Read.val_main_v8_apply, Read.val_main_v5_apply, Read.val_main_v7_apply, Read.val_main_v6_apply]
  have e3 : Read.idx_main_v6 (Read.idx_main_v7 (ix2 n k)) = ix1 k := funext fun a => by
    match a with
    | ⟨0, _⟩ => rfl
  have e4 : ∀ j : Fin 512, Read.lidx_main_v5 (ix2 n k) j = ix2 n j := fun j => funext fun a => by
    match a with
    | ⟨0, _⟩ => rfl
    | ⟨1, _⟩ => rfl
  have e5 : ∀ j : Fin 512, Read.ridx_main_v5 (ix2 n k) j = ix2 j k := fun j => funext fun a => by
    match a with
    | ⟨0, _⟩ => rfl
    | ⟨1, _⟩ => rfl
  simp only [e3, e4, e5, hidden_at, Ideal.addf_def]
  rfl

/-- Entry `b` of the reference's result is segment `b`'s sum. -/
theorem result_at (x0 : (⟨S16384x128, .f32⟩ : BufTy).Contents (Elt Ideal)) (x1 : (⟨S16384, .i32⟩ : BufTy).Contents (Elt Ideal))
    (x2 : (⟨S128x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (x6 : (⟨S256x1, .f32⟩ : BufTy).Contents (Elt Ideal)) (b : Fin 16) :
    Read.val_main_v13 (F := Ideal) x0 x1 x2 x3 x4 x5 x6 (ix1 b)
      = Spec.refR (Spec.mat x0) (Spec.vec x1) (Spec.mat x2) (Spec.vec x3) (Spec.mat x4) (Spec.vec x5) (Spec.col x6) b := by
  unfold Read.val_main_v13
  simp only [Host.scatterAdd, Ideal.hostScatterAdd_def]
  unfold Ideal.hostScatterAdd
  have hz : Read.val_main_v11 (F := Ideal) (ix1 b) = 0 := by
    rw [Read.val_main_v11_apply, Read.val_main_cst_apply, Ideal.ofBits_def, Ideal.ofBits_zero_f32]
  rw [hz, zero_add]
  unfold Spec.refR
  rw [Finset.sum_filter, Finset.sum_filter]
  refine Fintype.sum_equiv idxEquiv1 _ _ fun j => ?_
  obtain ⟨n, rfl⟩ : ∃ n, j = ix1 n := ⟨j 0, eq_ix1 j⟩
  have hn : idxEquiv1 (ix1 n : S16384.Idx) = n := rfl
  beta_reduce
  rw [hn]
  have key : (scatter_S16_S16384x1_S16384_n_0_0_1.resultIdx? (ix1 n : S16384.Idx) (Read.val_main_v12 (F := Ideal) x1) = some (ix1 b))
      ↔ Spec.hit (Spec.vec x1) n b := by
    rw [resultIdx_iff, Read.val_main_v12_apply]
    have e : Read.idx_main_v12 (ix2 ((ix1 n : S16384.Idx) 0) 0) = ix1 n := funext fun a => by
      match a with
      | ⟨0, _⟩ => rfl
    rw [e]
    rfl
  by_cases h : Spec.hit (Spec.vec x1) n b
  · rw [if_pos h, if_pos (key.2 h)]
    exact token_at x0 x2 x3 x4 x5 x6 n
  · rw [if_neg h, if_neg (mt key.1 h)]

/-- The last stage of the reference, at the ideal instance, is the per-segment sum of the arguments. -/
theorem result_eq (x0 : (⟨S16384x128, .f32⟩ : BufTy).Contents (Elt Ideal)) (x1 : (⟨S16384, .i32⟩ : BufTy).Contents (Elt Ideal))
    (x2 : (⟨S128x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (x6 : (⟨S256x1, .f32⟩ : BufTy).Contents (Elt Ideal)) :
    Cert.ReferenceIdeal.Read.val_main_v13 (F := Ideal) x0 x1 x2 x3 x4 x5 x6 = Cert.Spec.R x0 x1 x2 x3 x4 x5 x6 := by
  funext i
  obtain ⟨b, rfl⟩ : ∃ b, i = ix1 b := ⟨i 0, eq_ix1 i⟩
  exact result_at x0 x1 x2 x3 x4 x5 x6 b

end Cert.ReferenceIdeal.RefValue

end
-- ==== Proof.Algebra.lean ====
/-
  The two readings of the segment totals are one number when every entry is real.

  Over the reals the head is linear, so for the tokens `n` of one segment
    Σ_n Σ_k ((Σ_j h n j · W2 j k) + b2 k) · w k
      = Σ_j (Σ_n h n j) · (Σ_k W2 j k · w k) + (Σ_k b2 k · w k) · #tokens,
  by distributing, exchanging the finite sums, and reading the token sum as a sum over 16 blocks of 1024
  with the indicator of the segment as a factor.
-/
import proofs.«140124_g27273042329868_cont_9to1_1261_3_alg».proof.Proof.Spec

noncomputable section

namespace Cert.Spec

open Finset

/-! ### The embedding of the reals commutes with finite sums and with `max` -/

/-- A finite sum of embedded reals is the embedded real sum. -/
theorem coe_finsum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The embedding is monotone, so it commutes with `max`. -/
theorem coe_max_real (a c : ℝ) : ((max a c : ℝ) : EReal) = max (a : EReal) (c : EReal) :=
  EReal.coe_strictMono.monotone.map_max

/-! ### Tokens as block and offset -/

/-- A token is a block and an offset inside the block: `n = 1024 · t + r`. -/
def tokEquiv : Fin 16 × Fin 1024 ≃ Fin 16384 where
  toFun p := tok p.1 p.2
  invFun n := (⟨n.val / 1024, by omega⟩, ⟨n.val % 1024, by omega⟩)
  left_inv := by
    rintro ⟨t, r⟩
    refine Prod.ext (Fin.ext ?_) (Fin.ext ?_)
    · show (1024 * t.val + r.val) / 1024 = t.val
      omega
    · show (1024 * t.val + r.val) % 1024 = r.val
      omega
  right_inv := by
    intro n
    refine Fin.ext ?_
    show 1024 * (n.val / 1024) + n.val % 1024 = n.val
    omega

/-- A sum over blocks and offsets is the sum over all tokens. -/
theorem sum_tok {M : Type} [AddCommMonoid M] (f : Fin 16384 → M) :
    ∑ t : Fin 16, ∑ r : Fin 1024, f (tok t r) = ∑ n : Fin 16384, f n :=
  calc ∑ t : Fin 16, ∑ r : Fin 1024, f (tok t r)
      = ∑ p : Fin 16 × Fin 1024, f (tok p.1 p.2) :=
        (Fintype.sum_prod_type' (fun t r => f (tok t r))).symm
    _ = ∑ n : Fin 16384, f n := Fintype.sum_equiv tokEquiv _ _ (fun _ => rfl)

/-! ### The identity over the reals, on abstract finite index types -/

/-- The linear tail of one token: exchange the two sums and split off the bias term. -/
theorem tail_real {J K : Type} [Fintype J] [Fintype K] (h : J → ℝ) (W2 : J → K → ℝ) (b2 w : K → ℝ) :
    ∑ k, ((∑ j, h j * W2 j k) + b2 k) * w k
      = (∑ j, h j * (∑ k, W2 j k * w k)) + ∑ k, b2 k * w k := by
  simp only [add_mul, Finset.sum_add_distrib, Finset.sum_mul, Finset.mul_sum]
  rw [Finset.sum_comm]
  congr 1
  exact Finset.sum_congr rfl (fun j _ => Finset.sum_congr rfl (fun k _ => by ring))

/-- Summing an affine reading over the members of a set: the linear part is read off the totals,
    the constant is counted once per member. -/
theorem core_real {N J : Type} [Fintype N] [Fintype J] (p : N → Prop) [DecidablePred p]
    (h : N → J → ℝ) (c : J → ℝ) (d : ℝ) :
    (∑ j, (∑ n, (if p n then (1 : ℝ) else 0) * h n j) * c j)
        + d * (∑ n, (if p n then (1 : ℝ) else 0))
      = ∑ n ∈ univ.filter p, ((∑ j, h n j * c j) + d) := by
  rw [Finset.sum_filter]
  simp only [Finset.sum_mul, Finset.mul_sum]
  rw [Finset.sum_comm, ← Finset.sum_add_distrib]
  refine Finset.sum_congr rfl (fun n _ => ?_)
  split_ifs <;> simp

/-! ### Both readings are embedded reals -/

/-- The hidden unit over the reals. -/
def hidR (x : Fin 16384 → Fin 128 → ℝ) (W1 : Fin 128 → Fin 512 → ℝ) (b1 : Fin 512 → ℝ)
    (n : Fin 16384) (j : Fin 512) : ℝ :=
  max ((∑ k : Fin 128, x n k * W1 k j) + b1 j) 0

theorem hid_coe (x : Fin 16384 → Fin 128 → ℝ) (W1 : Fin 128 → Fin 512 → ℝ) (b1 : Fin 512 → ℝ)
    (n : Fin 16384) (j : Fin 512) :
    hid (fun n k => ((x n k : ℝ) : EReal)) (fun k j => ((W1 k j : ℝ) : EReal))
        (fun j => ((b1 j : ℝ) : EReal)) n j = ((hidR x W1 b1 n j : ℝ) : EReal) := by
  unfold hid hidR
  rw [coe_max_real, EReal.coe_add, ← coe_finsum, EReal.coe_zero]
  simp only [EReal.coe_mul]

/-- The indicator is the embedded real indicator. -/
theorem onehot_coe (seg : Fin 16384 → BitVec 32) (n : Fin 16384) (b : Fin 16) :
    onehot seg n b = (((if hit seg n b then (1 : ℝ) else 0) : ℝ) : EReal) := by
  unfold onehot
  split_ifs <;> simp

/-- The per-token reading is an embedded real. -/
theorem refR_coe (x : Fin 16384 → Fin 128 → ℝ) (seg : Fin 16384 → BitVec 32)
    (W1 : Fin 128 → Fin 512 → ℝ) (b1 : Fin 512 → ℝ) (W2 : Fin 512 → Fin 256 → ℝ)
    (b2 : Fin 256 → ℝ) (w : Fin 256 → ℝ) (b : Fin 16) :
    refR (fun n k => ((x n k : ℝ) : EReal)) seg (fun k j => ((W1 k j : ℝ) : EReal))
        (fun j => ((b1 j : ℝ) : EReal)) (fun j k => ((W2 j k : ℝ) : EReal))
        (fun k => ((b2 k : ℝ) : EReal)) (fun k => ((w k : ℝ) : EReal)) b
      = ((∑ n ∈ univ.filter (fun n => hit seg n b),
            ∑ k : Fin 256, ((∑ j : Fin 512, hidR x W1 b1 n j * W2 j k) + b2 k) * w k : ℝ) : EReal) := by
  unfold refR
  simp only [hid_coe, ← EReal.coe_mul, ← EReal.coe_add, coe_finsum]

/-- The totals-first reading is an embedded real, its block sums read as sums over all tokens. -/
theorem kerR_coe (x : Fin 16384 → Fin 128 → ℝ) (seg : Fin 16384 → BitVec 32)
    (W1 : Fin 128 → Fin 512 → ℝ) (b1 : Fin 512 → ℝ) (W2 : Fin 512 → Fin 256 → ℝ)
    (b2 : Fin 256 → ℝ) (w : Fin 256 → ℝ) (b : Fin 16) :
    kerR (fun n k => ((x n k : ℝ) : EReal)) seg (fun k j => ((W1 k j : ℝ) : EReal))
        (fun j => ((b1 j : ℝ) : EReal)) (fun j k => ((W2 j k : ℝ) : EReal))
        (fun k => ((b2 k : ℝ) : EReal)) (fun k => ((w k : ℝ) : EReal)) b
      = (((∑ j : Fin 512, (∑ n : Fin 16384, (if hit seg n b then (1 : ℝ) else 0) * hidR x W1 b1 n j)
              * (∑ k : Fin 256, W2 j k * w k))
          + (∑ k : Fin 256, b2 k * w k)
              * (∑ n : Fin 16384, (if hit seg n b then (1 : ℝ) else 0)) : ℝ) : EReal) := by
  unfold kerR
  have h1 : ∀ j : Fin 512,
      ∑ t : Fin 16, ∑ r : Fin 1024,
          onehot seg (tok t r) b
            * hid (fun n k => ((x n k : ℝ) : EReal)) (fun k j => ((W1 k j : ℝ) : EReal))
                (fun j => ((b1 j : ℝ) : EReal)) (tok t r) j
        = ∑ n : Fin 16384,
            onehot seg n b
              * hid (fun n k => ((x n k : ℝ) : EReal)) (fun k j => ((W1 k j : ℝ) : EReal))
                  (fun j => ((b1 j : ℝ) : EReal)) n j :=
    fun j => sum_tok (fun n => onehot seg n b
      * hid (fun n k => ((x n k : ℝ) : EReal)) (fun k j => ((W1 k j : ℝ) : EReal))
          (fun j => ((b1 j : ℝ) : EReal)) n j)
  have h2 : ∑ t : Fin 16, ∑ r : Fin 1024, onehot seg (tok t r) b = ∑ n : Fin 16384, onehot seg n b :=
    sum_tok (fun n => onehot seg n b)
  simp only [h1, h2]
  simp only [hid_coe, onehot_coe, ← EReal.coe_mul, ← EReal.coe_add, coe_finsum]

theorem kerR_eq_refR (x : Fin 16384 → Fin 128 → EReal) (seg : Fin 16384 → BitVec 32)
    (W1 : Fin 128 → Fin 512 → EReal) (b1 : Fin 512 → EReal) (W2 : Fin 512 → Fin 256 → EReal)
    (b2 : Fin 256 → EReal) (w : Fin 256 → EReal)
    (hx : Fin2 x) (hW1 : Fin2 W1) (hb1 : Fin1 b1) (hW2 : Fin2 W2) (hb2 : Fin1 b2) (hw : Fin1 w) (b : Fin 16) :
    kerR x seg W1 b1 W2 b2 w b = refR x seg W1 b1 W2 b2 w b := by
  obtain ⟨x', rfl⟩ : ∃ x' : Fin 16384 → Fin 128 → ℝ, x = fun n k => ((x' n k : ℝ) : EReal) :=
    ⟨fun n k => (x n k).toReal,
      by funext n k; exact (EReal.coe_toReal (hx n k).1 (hx n k).2).symm⟩
  obtain ⟨W1', rfl⟩ : ∃ W1' : Fin 128 → Fin 512 → ℝ, W1 = fun k j => ((W1' k j : ℝ) : EReal) :=
    ⟨fun k j => (W1 k j).toReal,
      by funext k j; exact (EReal.coe_toReal (hW1 k j).1 (hW1 k j).2).symm⟩
  obtain ⟨b1', rfl⟩ : ∃ b1' : Fin 512 → ℝ, b1 = fun j => ((b1' j : ℝ) : EReal) :=
    ⟨fun j => (b1 j).toReal, by funext j; exact (EReal.coe_toReal (hb1 j).1 (hb1 j).2).symm⟩
  obtain ⟨W2', rfl⟩ : ∃ W2' : Fin 512 → Fin 256 → ℝ, W2 = fun j k => ((W2' j k : ℝ) : EReal) :=
    ⟨fun j k => (W2 j k).toReal,
      by funext j k; exact (EReal.coe_toReal (hW2 j k).1 (hW2 j k).2).symm⟩
  obtain ⟨b2', rfl⟩ : ∃ b2' : Fin 256 → ℝ, b2 = fun k => ((b2' k : ℝ) : EReal) :=
    ⟨fun k => (b2 k).toReal, by funext k; exact (EReal.coe_toReal (hb2 k).1 (hb2 k).2).symm⟩
  obtain ⟨w', rfl⟩ : ∃ w' : Fin 256 → ℝ, w = fun k => ((w' k : ℝ) : EReal) :=
    ⟨fun k => (w k).toReal, by funext k; exact (EReal.coe_toReal (hw k).1 (hw k).2).symm⟩
  rw [kerR_coe, refR_coe, EReal.coe_eq_coe_iff]
  simp only [tail_real]
  exact core_real (fun n => hit seg n b) (hidR x' W1' b1') (fun j => ∑ k, W2' j k * w' k)
    (∑ k, b2' k * w' k)

end Cert.Spec

end
-- ==== Proof.Finite.lean ====
/-
  The precondition says every float argument is finite: over the extended reals, `|x| < +∞` at every
  entry, which is to say every entry is a real number.
-/
import proofs.«140124_g27273042329868_cont_9to1_1261_3_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

variable [Cert.Pre_finite_inputs.Facts]

/-- The scalar shape has one index. -/
instance : Subsingleton S_.Idx := ⟨fun a b => funext fun d => d.elim0⟩

/-- The word of `+∞` denotes the top of the extended reals. -/
theorem inf_bits : Ideal.ofBits .f32 0x7F800000#32 = (⊤ : EReal) := by
  simp [Ideal.ofBits, Ideal.ieee]

/-- An extended real whose absolute value is below `+∞` is neither infinity. -/
theorem real_of_abs_lt (x : EReal) (h : Ideal.cmp .olt (max x (-x)) ⊤ = 1#1) : x ≠ ⊤ ∧ x ≠ ⊥ := by
  unfold Ideal.cmp at h
  have h' : max x (-x) < ⊤ := by
    by_contra hn
    simp [hn] at h
  constructor
  · rintro rfl; simp at h'
  · rintro rfl; simp at h'

/-- One conjunct of the precondition, read at an entry. -/
theorem entry {s : Shape} {axes : List (Fin s.rank)} (a : FVec Ideal s .f32)
    (hb : S_.BroadcastsInDim s (![] : Fin 0 → Fin s.rank))
    (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) (i : s.Idx) : a i ≠ ⊤ ∧ a i ≠ ⊥ := by
  have h := Host.reduce_andi_all _ _ hr hu ValueIdx.ix0 e i
  refine real_of_abs_lt (a i) ?_
  have : Ideal.cmp .olt (max (a i) (-(a i))) (Ideal.ofBits .f32 0x7F800000#32) = 1#1 := h
  rwa [inf_bits] at this

/-- Under the precondition every entry of the six float arguments is a real number. -/
theorem of_pre (a0 : FVec Ideal S16384x128 .f32) (a1 : IVec S16384 32) (a2 : FVec Ideal S128x512 .f32)
    (a3 : FVec Ideal S512 .f32) (a4 : FVec Ideal S512x256 .f32) (a5 : FVec Ideal S256 .f32) (a6 : FVec Ideal S256x1 .f32)
    (h : Cert.Pre_finite_inputs.fn (F := Ideal) a0 a1 a2 a3 a4 a5 a6 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥) := by
  have h0 := congrFun h ValueIdx.ix0
  dsimp only [fn, fn_part1, andi] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨entry a0 _ _ _ e0, entry a2 _ _ _ e2, entry a3 _ _ _ e3, entry a4 _ _ _ e4,
    entry a5 _ _ _ e5, entry a6 _ _ _ e6⟩

end Cert.Finite

end
-- ==== Proof.lean ====
/-
  The certificate: a token batch's per-segment reward totals, computed by a blocked kernel that folds
  the linear tail out of the token sum, against the plain per-token computation followed by a segment sum.

  The three frames: the kernel's two instances run by their generated frame proofs; the reference is a
  straight line of host operations, and its generated run gives its frame. The ideal pass rewrote
  nothing, so the idealization claim is trivial. The value claim: at the ideal instance the kernel's
  result is `kerR` of the arguments (the running totals over the 16 grid points, an induction; the last
  point's output block; the host's flattening), the reference's is `refR` of the same arguments (its
  stages read at an index; the accumulating scatter as a sum over the tokens whose id names the entry),
  and the two agree because the precondition makes every float entry a real number, over which the head
  is linear and the finite sums may be exchanged.
-/
import proofs.«140124_g27273042329868_cont_9to1_1261_3_alg».proof.Defs
import proofs.«140124_g27273042329868_cont_9to1_1261_3_alg».proof.Proof.Gen.Kernel
import proofs.«140124_g27273042329868_cont_9to1_1261_3_alg».proof.Proof.Gen.Kernel.Frame
import proofs.«140124_g27273042329868_cont_9to1_1261_3_alg».proof.Proof.Gen.KernelIdeal
import proofs.«140124_g27273042329868_cont_9to1_1261_3_alg».proof.Proof.Gen.KernelIdeal.Frame
import proofs.«140124_g27273042329868_cont_9to1_1261_3_alg».proof.Proof.Gen.ReferenceIdeal
import proofs.«140124_g27273042329868_cont_9to1_1261_3_alg».proof.Proof.Gen.ReferenceIdeal.Run
import proofs.«140124_g27273042329868_cont_9to1_1261_3_alg».proof.Proof.Gen.ReferenceIdeal.Read
import proofs.«140124_g27273042329868_cont_9to1_1261_3_alg».proof.Proof.Gen.Pre_finite_inputs
import proofs.«140124_g27273042329868_cont_9to1_1261_3_alg».proof.Proof.KFinal
import proofs.«140124_g27273042329868_cont_9to1_1261_3_alg».proof.Proof.RefValue
import proofs.«140124_g27273042329868_cont_9to1_1261_3_alg».proof.Proof.Algebra
import proofs.«140124_g27273042329868_cont_9to1_1261_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the segment totals of the arguments: the kernel at `kerR`, the reference at
    `refR`, one number where every float entry is real. -/
theorem algebraic : Cert.algebraic_KernelIdeal_ReferenceIdeal := by
  intro m ρ m' ρ' hpre hagree
  refine ⟨fun c => Cert.Spec.K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  rw [Cert.ReferenceIdeal.Read.val_main_v13_eq, Cert.ReferenceIdeal.RefValue.result_eq]
  obtain ⟨f0, f2, f3, f4, f5, f6⟩ := Cert.Finite.of_pre _ _ _ _ _ _ _ (hpre c)
  funext i
  unfold Cert.Spec.R Cert.Spec.K
  exact (Cert.Spec.kerR_eq_refR _ _ _ _ _ _ _ (fun n k => f0 _) (fun k j => f2 _) (fun j => f3 _) (fun j k => f4 _)
    (fun k => f5 _) (fun k => f6 _) (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
